-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x128 : Shape := ⟨2, ![50000, 128]⟩
abbrev S2x50000x10 : Shape := ⟨3, ![2, 50000, 10]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x50000x10 : S_.BroadcastsInDim S2x50000x10 (![] : Fin 0 → Fin S2x50000x10.rank)
  reducesTo_S2x50000x10_S_d0_1_2 : S2x50000x10.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_v32 : IVec S_ 1) (main_c_12 : IVec S_ 32) : IVec S_ 1 :=
  let main_v33 : IVec S50000 32 := broadcastInDim S50000 ![] bcast_S_S50000 main_c_12
  let main_v34 : IVec S50000 1 := cmpi .slt main_arg0 main_v33
  let main_c_13 : IVec S_ 1 := constantI S_ 1 1#1
  let main_v35 : IVec S_ 1 := (fun x v => Host.reduce IntOp.andi x v reducesTo_S50000_S_d0 h_S_) main_v34 main_c_13
  let main_v36 : IVec S_ 1 := andi main_v32 main_v35
  main_v36

def fn_part1 {F : FTy → Type} [FloatOps F] (main_arg0 : IVec S50000 32) (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 4294917296#32
  let main_v29 : IVec S50000 32 := broadcastInDim S50000 ![] bcast_S_S50000 main_c_10
  let main_v30 : IVec S50000 1 := cmpi .sge main_arg0 main_v29
  let main_c_11 : IVec S_ 1 := constantI S_ 1 1#1
  let main_v31 : IVec S_ 1 := (fun x v => Host.reduce IntOp.andi x v reducesTo_S50000_S_d0 h_S_) main_v30 main_c_11
  let main_v32 : IVec S_ 1 := andi main_v28 main_v31
  let main_c_12 : IVec S_ 32 := constantI S_ 32 50000#32
  fn_part2 (F := F) main_arg0 main_v32 main_c_12

def fn {F : FTy → Type} [FloatOps F] (main_arg0 : IVec S50000 32) (main_arg1 : FVec F S50000x128 .f32) (main_arg2 : IVec S2x50000x10 32) (main_arg3 : FVec F S2x50000x10 .f32) (main_arg4 : FVec F S256x256 .f32) (main_arg5 : FVec F S256 .f32) (main_arg6 : FVec F S512x256 .f32) (main_arg7 : FVec F S256 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x50000x10 .f32 := Host.absf main_arg3
  let main_cst_0 : FVec F S_ .f32 := constant S_ .f32 0x7F800000#32
  let main_v5 : FVec F S2x50000x10 .f32 := broadcastInDim S2x50000x10 ![] bcast_S_S2x50000x10 main_cst_0
  let main_v6 : IVec S2x50000x10 1 := cmpf .olt main_v4 main_v5
  let main_c_1 : IVec S_ 1 := constantI S_ 1 1#1
  let main_v7 : IVec S_ 1 := (fun x v => Host.reduce IntOp.andi x v reducesTo_S2x50000x10_S_d0_1_2 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg6 main_arg7 main_v13 main_v16
-- ==== Kernel.lean ====
abbrev S50000 : Shape := ⟨1, ![50000]⟩
abbrev S50000x128 : Shape := ⟨2, ![50000, 128]⟩
abbrev S2x50000x10 : Shape := ⟨3, ![2, 50000, 10]⟩
abbrev S256x256 : Shape := ⟨2, ![256, 256]⟩
abbrev S256 : Shape := ⟨1, ![256]⟩
abbrev S512x256 : Shape := ⟨2, ![512, 256]⟩
abbrev S1x50000x10 : Shape := ⟨3, ![1, 50000, 10]⟩
abbrev S50000x10 : Shape := ⟨2, ![50000, 10]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S50000x10x1 : Shape := ⟨3, ![50000, 10, 1]⟩
abbrev S50000x10x128 : Shape := ⟨3, ![50000, 10, 128]⟩
abbrev S1x256 : Shape := ⟨2, ![1, 256]⟩
abbrev S50000x256 : Shape := ⟨2, ![50000, 256]⟩
abbrev S1000x128 : Shape := ⟨2, ![1000, 128]⟩
abbrev S1000x256 : Shape := ⟨2, ![1000, 256]⟩
abbrev S50000x10x256 : Shape := ⟨3, ![50000, 10, 256]⟩
abbrev S1000x512 : Shape := ⟨2, ![1000, 512]⟩

abbrev nBuf : Space → Nat
  | .hbm => 104
  | .vmem => 16
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x50000x10, .i32⟩
  | .hbm, ⟨3, _⟩ => ⟨S2x50000x10, .f32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S1x50000x10, .i32⟩
  | .hbm, ⟨9, _⟩ => ⟨S50000x10, .i32⟩
  | .hbm, ⟨10, _⟩ => ⟨S1x50000x10, .f32⟩
  | .hbm, ⟨11, _⟩ => ⟨S50000x10, .f32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S1, .i32⟩
  | .hbm, ⟨21, _⟩ => ⟨S_, .i32⟩
  | .hbm, ⟨22, _⟩ => ⟨S50000x1, .i32⟩
  | .hbm, ⟨23, _⟩ => ⟨S50000x1, .i1⟩
  | .hbm, ⟨24, _⟩ => ⟨S1x1, .i32⟩
  | .hbm, ⟨25, _⟩ => ⟨S50000x1, .i32⟩
  | .hbm, ⟨26, _⟩ => ⟨S50000x1, .i1⟩
  | .hbm, ⟨27, _⟩ => ⟨S50000x1, .i1⟩
  | .hbm, ⟨28, _⟩ => ⟨S_, .i1⟩
  | .hbm, ⟨29, _⟩ => ⟨S50000, .i1⟩
  | .hbm, ⟨30, _⟩ => ⟨S50000x128, .f32⟩
  | .hbm, ⟨31, _⟩ => ⟨S50000x128, .i1⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S50000x10, .i32⟩
  | .hbm, ⟨37, _⟩ => ⟨S50000x10, .i1⟩
  | .hbm, ⟨38, _⟩ => ⟨S_, .i32⟩
  | .hbm, ⟨39, _⟩ => ⟨S50000x10, .i32⟩
  | .hbm, ⟨40, _⟩ => ⟨S50000x10, .i32⟩
  | .hbm, ⟨41, _⟩ => ⟨S50000x10, .i32⟩
  | .hbm, ⟨42, _⟩ => ⟨S50000x10x1, .i32⟩
  | .hbm, ⟨43, _⟩ => ⟨S50000x10x128, .f32⟩
  | .hbm, ⟨44, _⟩ => ⟨S50000x10x1, .f32⟩
  | .hbm, ⟨45, _⟩ => ⟨S50000x10x128, .f32⟩
  | .hbm, ⟨46, _⟩ => ⟨S50000x10x128, .f32⟩
  | .hbm, ⟨47, _⟩ => ⟨S_, .f32⟩
  | .hbm, ⟨48, _⟩ => ⟨S50000x128, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S1x256, .f32⟩
  | .hbm, ⟨55, _⟩ => ⟨S50000x256, .f32⟩
  | .hbm, ⟨56, _⟩ => ⟨S1x50000x10, .i32⟩
  | .hbm, ⟨57, _⟩ => ⟨S50000x10, .i32⟩
  | .hbm, ⟨58, _⟩ => ⟨S1x50000x10, .f32⟩
  | .hbm, ⟨59, _⟩ => ⟨S50000x10, .f32⟩
  | .hbm, ⟨60, _⟩ => ⟨S_, .i32⟩
  | .hbm, ⟨61, _⟩ => ⟨S50000, .i32⟩
  | .hbm, ⟨62, _⟩ => ⟨S50000, .i1⟩
  | .hbm, ⟨63, _⟩ => ⟨S_, .i32⟩
  | .hbm, ⟨64, _⟩ => ⟨S50000, .i32⟩
  | .hbm, ⟨65, _⟩ => ⟨S50000, .i32⟩
  | .hbm, ⟨66, _⟩ => ⟨S50000, .i32⟩
  | .hbm, ⟨67, _⟩ => ⟨S50000x1, .i32⟩
  | .hbm, ⟨68, _⟩ => ⟨S1, .i32⟩
  | .hbm, ⟨69, _⟩ => ⟨S_, .i32⟩
  | .hbm, ⟨70, _⟩ => ⟨S50000x1, .i32⟩
  | .hbm, ⟨71, _⟩ => ⟨S50000x1, .i1⟩
  | .hbm, ⟨72, _⟩ => ⟨S1x1, .i32⟩
  | .hbm, ⟨73, _⟩ => ⟨S50000x1, .i32⟩
  | .hbm, ⟨74, _⟩ => ⟨S50000x1, .i1⟩
  | .hbm, ⟨75, _⟩ => ⟨S50000x1, .i1⟩
  | .hbm, ⟨76, _⟩ => ⟨S_, .i1⟩
  | .hbm, ⟨77, _⟩ => ⟨S50000, .i1⟩
  | .hbm, ⟨78, _⟩ => ⟨S50000x256, .f32⟩
  | .hbm, ⟨79, _⟩ => ⟨S50000x256, .i1⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S50000x10, .i32⟩
  | .hbm, ⟨85, _⟩ => ⟨S50000x10, .i1⟩
  | .hbm, ⟨86, _⟩ => ⟨S_, .i32⟩
  | .hbm, ⟨87, _⟩ => ⟨S50000x10, .i32⟩
  | .hbm, ⟨88, _⟩ => ⟨S50000x10, .i32⟩
  | .hbm, ⟨89, _⟩ => ⟨S50000x10, .i32⟩
  | .hbm, ⟨90, _⟩ => ⟨S50000x10x1, .i32⟩
  | .hbm, ⟨91, _⟩ => ⟨S50000x10x256, .f32⟩
  | .hbm, ⟨92, _⟩ => ⟨S50000x10x1, .f32⟩
  | .hbm, ⟨93, _⟩ => ⟨S50000x10x256, .f32⟩
  | .hbm, ⟨94, _⟩ => ⟨S50000x10x256, .f32⟩
  | .hbm, ⟨95, _⟩ => ⟨S_, .f32⟩
  | .hbm, ⟨96, _⟩ => ⟨S50000x256, .f32⟩
  | .hbm, ⟨97, _⟩ => ⟨S_, .f32⟩
  | .hbm, ⟨98, _⟩ => ⟨S50000, .f32⟩
  | .hbm, ⟨99, _⟩ => ⟨S50000x1, .f32⟩
  | .hbm, ⟨100, _⟩ => ⟨S50000x256, .f32⟩
  | .hbm, ⟨101, _⟩ => ⟨S50000x256, .f32⟩
  | .hbm, ⟨102, _⟩ => ⟨S1x256, .f32⟩
  | .hbm, ⟨103, _⟩ => ⟨S50000x256, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S256x256, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S512x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v26 : Ref sig .tc := ⟨.hbm, 82, rfl⟩
abbrev main_c_2 : Ref sig .tc := ⟨.hbm, 83, rfl⟩
abbrev main_v27 : Ref sig .tc := ⟨.hbm, 84, rfl⟩
abbrev main_v28 : Ref sig .tc := ⟨.hbm, 85, rfl⟩
abbrev main_c_3 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_4 : Ref sig .tc := ⟨.hbm, 95, rfl⟩
abbrev main_v37 : Ref sig .tc := ⟨.hbm, 96, rfl⟩
abbrev main_cst_5 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x50000x10_S1x50000x10_0_0_0 : S2x50000x10.Slices ![0, 0, 0] S1x50000x10
  shapeCasts_S1x50000x10_S50000x10 : S1x50000x10.ShapeCasts S50000x10
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x128_0_1_2 : S50000x10x1.BroadcastsInDim S50000x10x128 (![0, 1, 2] : Fin 3 → Fin S50000x10x128.rank)
  reducesTo_S50000x10x128_S50000x128_d1 : S50000x10x128.ReducesTo [1] S50000x128
  reducesTo_S50000x10_S50000_d1 : S50000x10.ReducesTo [1] S50000
  bcast_S50000x1_S50000x128_0_1 : S50000x1.BroadcastsInDim S50000x128 (![0, 1] : Fin 2 → Fin S50000x128.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  slices_S2x50000x10_S1x50000x10_1_0_0 : S2x50000x10.Slices ![1, 0, 0] S1x50000x10
  bcast_S50000_S50000x256_0 : S50000.BroadcastsInDim S50000x256 (![0] : Fin 1 → Fin S50000x256.rank)
  bcast_S_S50000x256 : S_.BroadcastsInDim S50000x256 (![] : Fin 0 → Fin S50000x256.rank)
  bcast_S50000x10x1_S50000x10x256_0_1_2 : S50000x10x1.BroadcastsInDim S50000x10x256 (![0, 1, 2] : Fin 3 → Fin S50000x10x256.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  shapeCasts_S1000x256_S1000x256 : S1000x256.ShapeCasts S1000x256
  concatenates_S1000x256_S1000x256_S1000x512_d1 : Shape.Concatenates [S1000x256, S1000x256] S1000x512 1
  inb_S512x256_S512x256_0_0 : ∀ a, (![0, 0] : Fin 2 → Nat) a + S512x256.size a ≤ S512x256.size a
  h_S512x256 : 0 < S512x256.numel
  gather_S50000x128_S50000x1_S50000x128_1_0_n_n_0_1_1128_wf : GatherDims.WF S50000x128 S50000x1 S50000x128 [1] [0] [] [0] [] 1 ![1, 128]
  gather_S50000x128_S50000x10x1_S50000x10x128_2_0_n_n_0_2_1128_wf : GatherDims.WF S50000x128 S50000x10x1 S50000x10x128 [2] [0] [] [0] [] 2 ![1, 128]
  dot_S1000x256_S256x256_S1000x256_1_0_0_1_n_n_wf : DotDims.WF S1000x256 S256x256 S1000x256 [1] [0] [0] [1] [] []
  gather_S50000x256_S50000x1_S50000x256_1_0_n_n_0_1_1256_wf : GatherDims.WF S50000x256 S50000x1 S50000x256 [1] [0] [] [0] [] 1 ![1, 256]
  gather_S50000x256_S50000x10x1_S50000x10x256_2_0_n_n_0_2_1256_wf : GatherDims.WF S50000x256 S50000x10x1 S50000x10x256 [2] [0] [] [0] [] 2 ![1, 256]
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S50000x256.size a
  hwx1_4 : ∀ i : grid1.Coords, EltTy.bits .f32 = 32 ∨ (Rect.block (s := S50000x256) S1000x256.size (cc1_transform_4 i) (hinb1_4 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S50000x10x1_S50000x10x128_2_0_n_n_0_2_1128 : GatherDims S50000x128 S50000x10x1 S50000x10x128 where
  offsetDims := [2]
  collapsedSliceDims := [0]
  operandBatchingDims := []
  startIndicesBatchingDims := []
  startIndexMap := [0]
  indexVectorDim := 2
  sliceSizes := ![1, 128]
  wf := gather_S50000x128_S50000x10x1_S50000x10x128_2_0_n_n_0_2_1128_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v4) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S50000x128 : Shape := ⟨2, ![50000, 128]⟩
abbrev S2x50000x10 : Shape := ⟨3, ![2, 50000, 10]⟩
abbrev S256x256 : Shape := ⟨2, ![256, 256]⟩
abbrev S256 : Shape := ⟨1, ![256]⟩
abbrev S512x256 : Shape := ⟨2, ![512, 256]⟩
abbrev S1x50000x10 : Shape := ⟨3, ![1, 50000, 10]⟩
abbrev S50000x10 : Shape := ⟨2, ![50000, 10]⟩
abbrev S_ : Shape := ⟨0, ![]⟩
abbrev S50000x10x1 : Shape := ⟨3, ![50000, 10, 1]⟩
abbrev S50000x10x128 : Shape := ⟨3, ![50000, 10, 128]⟩
abbrev S50000x1 : Shape := ⟨2, ![50000, 1]⟩
abbrev S50000x256 : Shape := ⟨2, ![50000, 256]⟩
abbrev S1x256 : Shape := ⟨2, ![1, 256]⟩
abbrev S50000x10x256 : Shape := ⟨3, ![50000, 10, 256]⟩
abbrev S50000x512 : Shape := ⟨2, ![50000, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S2x50000x10, .i32⟩
  | .hbm, ⟨3, _⟩ => ⟨S2x50000x10, .f32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S1x50000x10, .i32⟩
  | .hbm, ⟨9, _⟩ => ⟨S50000x10, .i32⟩
  | .hbm, ⟨10, _⟩ => ⟨S1x50000x10, .f32⟩
  | .hbm, ⟨11, _⟩ => ⟨S50000x10, .f32⟩
  | .hbm, ⟨12, _⟩ => ⟨S_, .i32⟩
  | .hbm, ⟨13, _⟩ => ⟨S50000x10, .i32⟩
  | .hbm, ⟨14, _⟩ => ⟨S50000x10, .i1⟩
  | .hbm, ⟨15, _⟩ => ⟨S_, .i32⟩
  | .hbm, ⟨16, _⟩ => ⟨S50000x10, .i32⟩
  | .hbm, ⟨17, _⟩ => ⟨S50000x10, .i32⟩
  | .hbm, ⟨18, _⟩ => ⟨S50000x10, .i32⟩
  | .hbm, ⟨19, _⟩ => ⟨S50000x10x1, .i32⟩
  | .hbm, ⟨20, _⟩ => ⟨S50000x10x128, .f32⟩
  | .hbm, ⟨21, _⟩ => ⟨S50000x10x1, .f32⟩
  | .hbm, ⟨22, _⟩ => ⟨S50000x10x128, .f32⟩
  | .hbm, ⟨23, _⟩ => ⟨S50000x10x128, .f32⟩
  | .hbm, ⟨24, _⟩ => ⟨S_, .f32⟩
  | .hbm, ⟨25, _⟩ => ⟨S50000x128, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S50000, .i32⟩
  | .hbm, ⟨33, _⟩ => ⟨S50000, .i1⟩
  | .hbm, ⟨34, _⟩ => ⟨S_, .i32⟩
  | .hbm, ⟨35, _⟩ => ⟨S50000, .i32⟩
  | .hbm, ⟨36, _⟩ => ⟨S50000, .i32⟩
  | .hbm, ⟨37, _⟩ => ⟨S50000, .i32⟩
  | .hbm, ⟨38, _⟩ => ⟨S50000x1, .i32⟩
  | .hbm, ⟨39, _⟩ => ⟨S50000x128, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x50000x10, .i32⟩
  | .hbm, ⟨49, _⟩ => ⟨S50000x10, .i32⟩
  | .hbm, ⟨50, _⟩ => ⟨S1x50000x10, .f32⟩
  | .hbm, ⟨51, _⟩ => ⟨S50000x10, .f32⟩
  | .hbm, ⟨52, _⟩ => ⟨S_, .i32⟩
  | .hbm, ⟨53, _⟩ => ⟨S50000x10, .i32⟩
  | .hbm, ⟨54, _⟩ => ⟨S50000x10, .i1⟩
  | .hbm, ⟨55, _⟩ => ⟨S_, .i32⟩
  | .hbm, ⟨56, _⟩ => ⟨S50000x10, .i32⟩
  | .hbm, ⟨57, _⟩ => ⟨S50000x10, .i32⟩
  | .hbm, ⟨58, _⟩ => ⟨S50000x10, .i32⟩
  | .hbm, ⟨59, _⟩ => ⟨S50000x10x1, .i32⟩
  | .hbm, ⟨60, _⟩ => ⟨S50000x10x256, .f32⟩
  | .hbm, ⟨61, _⟩ => ⟨S50000x10x1, .f32⟩
  | .hbm, ⟨62, _⟩ => ⟨S50000x10x256, .f32⟩
  | .hbm, ⟨63, _⟩ => ⟨S50000x10x256, .f32⟩
  | .hbm, ⟨64, _⟩ => ⟨S_, .f32⟩
  | .hbm, ⟨65, _⟩ => ⟨S50000x256, .f32⟩
  | .hbm, ⟨66, _⟩ => ⟨S_, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S_, .i32⟩
  | .hbm, ⟨72, _⟩ => ⟨S50000, .i32⟩
  | .hbm, ⟨73, _⟩ => ⟨S50000, .i1⟩
  | .hbm, ⟨74, _⟩ => ⟨S_, .i32⟩
  | .hbm, ⟨75, _⟩ => ⟨S50000, .i32⟩
  | .hbm, ⟨76, _⟩ => ⟨S50000, .i32⟩
  | .hbm, ⟨77, _⟩ => ⟨S50000, .i32⟩
  | .hbm, ⟨78, _⟩ => ⟨S50000x1, .i32⟩
  | .hbm, ⟨79, _⟩ => ⟨S50000x256, .f32⟩
  | .hbm, ⟨80, _⟩ => ⟨S50000x512, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x50000x10_S1x50000x10_0_0_0 : S2x50000x10.Slices ![0, 0, 0] S1x50000x10
  shapeCasts_S1x50000x10_S50000x10 : S1x50000x10.ShapeCasts S50000x10
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x128_0_1_2 : S50000x10x1.BroadcastsInDim S50000x10x128 (![0, 1, 2] : Fin 3 → Fin S50000x10x128.rank)
  reducesTo_S50000x10x128_S50000x128_d1 : S50000x10x128.ReducesTo [1] S50000x128
  h_S_ : 0 < S_.numel
  reducesTo_S50000x10_S50000_d1 : S50000x10.ReducesTo [1] S50000
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x50000x10_S1x50000x10_1_0_0 : S2x50000x10.Slices ![1, 0, 0] S1x50000x10
  bcast_S50000x10x1_S50000x10x256_0_1_2 : S50000x10x1.BroadcastsInDim S50000x10x256 (![0, 1, 2] : Fin 3 → Fin S50000x10x256.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  gather_S50000x128_S50000x10x1_S50000x10x128_2_0_n_n_0_2_1128_wf : GatherDims.WF S50000x128 S50000x10x1 S50000x10x128 [2] [0] [] [0] [] 2 ![1, 128]
  gather_S50000x128_S50000x1_S50000x128_1_0_n_n_0_1_1128_wf : GatherDims.WF S50000x128 S50000x1 S50000x128 [1] [0] [] [0] [] 1 ![1, 128]
  dot_S50000x256_S256x256_S50000x256_1_0_0_1_n_n_wf : DotDims.WF S50000x256 S256x256 S50000x256 [1] [0] [0] [1] [] []
  gather_S50000x256_S50000x10x1_S50000x10x256_2_0_n_n_0_2_1256_wf : GatherDims.WF S50000x256 S50000x10x1 S50000x10x256 [2] [0] [] [0] [] 2 ![1, 256]
  gather_S50000x256_S50000x1_S50000x256_1_0_n_n_0_1_1256_wf : GatherDims.WF S50000x256 S50000x1 S50000x256 [1] [0] [] [0] [] 1 ![1, 256]
  dot_S50000x512_S512x256_S50000x256_1_0_0_1_n_n_wf : DotDims.WF S50000x512 S512x256 S50000x256 [1] [0] [0] [1] [] []

variable [Facts₀]

def gather_S50000x128_S50000x10x1_S50000x10x128_2_0_n_n_0_2_1128 : GatherDims S50000x128 S50000x10x1 S50000x10x128 where
  offsetDims := [2]
  collapsedSliceDims := [0]
  operandBatchingDims := []
  startIndicesBatchingDims := []
  startIndexMap := [0]
  indexVectorDim := 2
  sliceSizes := ![1, 128]
  wf := gather_S50000x128_S50000x10x1_S50000x10x128_2_0_n_n_0_2_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf
def gather_S50000x256_S50000x1_S50000x256_1_0_n_n_0_1_1256 : GatherDims S50000x256 S50000x1 S50000x256 where
  offsetDims := [1]
  collapsedSliceDims := [0]
  operandBatchingDims := []
  startIndicesBatchingDims := []
  startIndexMap := [0]
  indexVectorDim := 1
  sliceSizes := ![1, 256]
  wf := gather_S50000x256_S50000x1_S50000x256_1_0_n_n_0_1_1256_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibDense.lean ====
/-
  One layer of the network as ONE function of whole arrays, and the reading of a side-by-side concatenation at an entry.

  A layer takes two row-aligned arrays `a`, `b` of `N` rows and `D` columns (a node's own features and the mean of its
  neighbours' features), lays them side by side into rows of `K = D + D` entries, multiplies by a weight matrix of `K` rows
  and `H` columns, adds a bias per column and clips below at zero:
      out[r, j] = max (Σ_k [a | b][r, k] · W[k, j] + bias[j]) 0        on the extended reals.
-/
import Idealize.ShloMosaic.PureOps.Ideal
import Idealize.ShloMosaic.Lib.ValueIdx
import Idealize.ShloMosaic.Lib.Pipeline.Value

noncomputable section

open scoped BigOperators

namespace Cert.Dense

open Idealize.ShloMosaic Idealize.ShloMosaic.ValueIdx

/-- Entry `k` of row `r` of `[a | b]`: `a`'s entry for `k < D`, `b`'s entry `k - D` for the next `D` columns. -/
def catRow {N D K : Nat} (a b : (⟨2, ![N, D]⟩ : Shape).Idx → EReal) (r : Fin N) (k : Fin K) : EReal :=
  if h : k.val < D then a (ix2 r ⟨k.val, h⟩)
  else if h2 : k.val - D < D then b (ix2 r ⟨k.val - D, h2⟩) else 0

/-- The layer: `max (Σ_k [a | b][r, k] · W[k, j] + bias[j]) 0` at entry `(r, j)`. -/
def dense {N D K H : Nat} (a b : (⟨2, ![N, D]⟩ : Shape).Idx → EReal) (W : (⟨2, ![K, H]⟩ : Shape).Idx → EReal)
    (bias : Fin H → EReal) : (⟨2, ![N, H]⟩ : Shape).Idx → EReal :=
  fun i => max ((∑ k : Fin K, catRow a b (i 0) k * W (ix2 k (i 1))) + bias (i 1)) 0

theorem dense_apply {N D K H : Nat} (a b : (⟨2, ![N, D]⟩ : Shape).Idx → EReal) (W : (⟨2, ![K, H]⟩ : Shape).Idx → EReal)
    (bias : Fin H → EReal) (r : Fin N) (j : Fin H) :
    dense a b W bias (ix2 r j) = max ((∑ k : Fin K, catRow a b r k * W (ix2 k j)) + bias j) 0 := rfl

/-- Rows that agree entry by entry give the same concatenated row: row `r` of `[a | b]` is row `r'` of `[a' | b']`
    when `a`'s row `r` is `a'`'s row `r'` and likewise for `b`. -/
theorem catRow_congr {N N' D K : Nat} (a b : (⟨2, ![N, D]⟩ : Shape).Idx → EReal) (a' b' : (⟨2, ![N', D]⟩ : Shape).Idx → EReal)
    (r : Fin N) (r' : Fin N') (ha : ∀ k : Fin D, a (ix2 r k) = a' (ix2 r' k)) (hb : ∀ k : Fin D, b (ix2 r k) = b' (ix2 r' k))
    (k : Fin K) : catRow a b r k = catRow a' b' r' k := by
  unfold catRow
  by_cases h : k.val < D
  · rw [dif_pos h, dif_pos h]; exact ha _
  · rw [dif_neg h, dif_neg h]
    by_cases h2 : k.val - D < D
    · rw [dif_pos h2, dif_pos h2]; exact hb _
    · rw [dif_neg h2, dif_neg h2]

/-- Two arrays of `D` columns joined along the column axis into `K = D + D` columns, read at entry `(r, k)`. -/
theorem concatenate_cols_apply {N D K : Nat} (hK : D + D = K) (x₁ x₂ : (⟨2, ![N, D]⟩ : Shape).Idx → EReal)
    (h : Shape.Concatenates [(⟨2, ![N, D]⟩ : Shape), (⟨2, ![N, D]⟩ : Shape)] (⟨2, ![N, K]⟩ : Shape) (1 : Fin 2))
    (r : Fin N) (k : Fin K) :
    concatenate (⟨2, ![N, K]⟩ : Shape) (1 : Fin 2) [⟨(⟨2, ![N, D]⟩ : Shape), x₁⟩, ⟨(⟨2, ![N, D]⟩ : Shape), x₂⟩] h (ix2 r k)
      = catRow x₁ x₂ r k := by
  unfold catRow
  by_cases hk : k.val < D
  · rw [dif_pos hk]
    exact concatenate_pair_apply_left (1 : Fin 2) x₁ x₂ h (ix2 r k) rfl (ix2 r ⟨k.val, hk⟩)
      (fun b => match b with | ⟨0, _⟩ => rfl | ⟨1, _⟩ => rfl)
  · have h2 : k.val - D < D := by have := k.isLt; omega
    rw [dif_neg hk, dif_pos h2]
    exact concatenate_pair_apply_right (1 : Fin 2) x₁ x₂ h (ix2 r k) rfl rfl (ix2 r ⟨k.val - D, h2⟩)
      (fun b => match b with | ⟨0, _⟩ => fun _ => rfl | ⟨1, _⟩ => fun hne => absurd rfl hne)
      (by show k.val - D + D = k.val; omega)

end Cert.Dense

end
-- ==== Proof.Payload0.lean ====
/-
  The body of the first dense stage, read at one entry of its output block.

  The body loads a block of `1000` rows of the nodes' own features and the matching block of neighbour means (128 columns
  each), lays them side by side, multiplies by the whole 256×256 weight matrix into a zero accumulator, adds the bias row
  and clips below at zero. At entry (p, q) that is  max (Σ_k [x0 | x1][p, k] · W[k, q] + bias[0, q]) 0.
-/
import proofs.«425848_j34557306863778_3_alg».proof.Proof.Gen.KernelIdeal.Skeleton
import proofs.«425848_j34557306863778_3_alg».proof.Proof.LibDense
import Idealize.ShloMosaic.Lib.ValueIdx
import Idealize.ShloMosaic.Lib.Pipeline.Value
import Idealize.ShloMosaic.PureOps.Ideal.Laws

noncomputable section

open scoped BigOperators

namespace Cert.KernelIdeal.Payload0

open Cert.KernelIdeal Cert.KernelIdeal.Gen Idealize.ShloMosaic Idealize.ShloMosaic.ValueIdx Cert.Dense

/-! The matrix product's operand indices at output entry `i` and contraction index `q`: the left operand is read at
    (row of `i`, `q`), the right at (`q`, column of `i`). -/

theorem lhs_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The product into a zero accumulator at entry (p, q): the sum over the 256 contraction indices. -/
theorem matmul_apply (l : FVec Ideal S1000x256 .f32) (r : FVec Ideal S256x256 .f32) (p : Fin 1000) (q : Fin 256) :
    matmul dot_S1000x256_S256x256_S1000x256_1_0_0_1_n_n none l r (constant S1000x256 .f32 0x00000000#32) (ix2 p q)
      = ∑ k : Fin 256, l (ix2 p k) * r (ix2 k q) := by
  refine (Idealize.ShloMosaic.Ideal.matmul_constant_zero_apply dot_S1000x256_S256x256_S1000x256_1_0_0_1_n_n none l r (ix2 p q)).trans ?_
  rw [← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_0 _ _
    | ⟨1, _⟩ => exact (lhs_1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias row broadcast down the block's rows, at entry (p, q): the row's entry q. -/
theorem bias_apply (x3 : FVec Ideal S1x256 .f32) (p : Fin 1000) (q : Fin 256) :
    broadcastTo S1000x256 (shapeCast S1x256 x3 shapeCasts_S1x256_S1x256) broadcasts_S1x256_S1000x256 (ix2 p q) = x3 (ix2 0 q) := by
  rw [shapeCast_self]
  exact broadcastTo_apply x3 broadcasts_S1x256_S1000x256 (ix2 p q) (ix2 0 q) (fun a => by
    match a with
    | ⟨0, _⟩ => rfl
    | ⟨1, _⟩ => rfl)

/-- THE PAYLOAD at entry (p, q): the layer's formula over the loaded blocks. -/
theorem pay_apply (x0 x1 : FVec Ideal S1000x128 .f32) (x2 : FVec Ideal S256x256 .f32) (x3 : FVec Ideal S1x256 .f32)
    (p : Fin 1000) (q : Fin 256) :
    k0_pay1 (F := Ideal) x0 x1 x2 x3 (ix2 p q)
      = max ((∑ k : Fin 256, catRow x0 x1 p k * x2 (ix2 k q)) + x3 (ix2 0 q)) 0 := by
  unfold k0_pay1
  rw [maximumf_apply, addf_apply, matmul_apply, bias_apply, broadcast_apply]
  rw [shapeCast_self, shapeCast_self]
  have hz : (Scalar.ofBits (F := Ideal) .f32 0x00000000#32 : EReal) = 0 := Ideal.ofBits_zero_f32
  rw [hz]
  refine congrArg (fun s => max (s + x3 (ix2 0 q)) 0) (Finset.sum_congr rfl fun k _ => ?_)
  exact congrArg (· * x2 (ix2 k q)) (concatenate_cols_apply rfl x0 x1 concatenates_S1000x128_S1000x128_S1000x256_d1 p k)

end Cert.KernelIdeal.Payload0

end
-- ==== Proof.Region0.lean ====
/-
  The first dense stage's output array after its pipeline has run: ONE function of the arrays the stage finds.

  The stage runs over 50 grid points; point t loads rows 1000·t … 1000·t + 999 of the nodes' own features and of the
  neighbour means, the whole weight matrix and the bias row, and writes back rows 1000·t … 1000·t + 999 of the output.
  Each written block is the matching block of the layer's formula over the whole arrays, and the 50 blocks cover every
  row, so the output array IS that formula.
-/
import proofs.«425848_j34557306863778_3_alg».proof.Proof.Gen.KernelIdeal.Frame
import proofs.«425848_j34557306863778_3_alg».proof.Proof.Payload0
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 grid points: the two row-blocked inputs and the output sit at block row
    `t`, block column 0; the weight matrix and the bias row are one block each. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The arrays as the stage finds them, at their literal types. -/
abbrev selfArr (c : Dev nD) : FVec Ideal S50000x128 .f32 := V c main_v4
abbrev neighArr (c : Dev nD) : FVec Ideal S50000x128 .f32 := V c main_v19
abbrev wArr (c : Dev nD) : FVec Ideal S256x256 .f32 := V c main_arg4
abbrev bArr (c : Dev nD) : FVec Ideal S1x256 .f32 := V c main_v20

/-- What the output array ends holding: the layer's formula over those arrays. -/
def G (c : Dev nD) : FVec Ideal S50000x256 .f32 :=
  dense (selfArr V c) (neighArr V c) (wArr V c) (fun q => bArr V c (ix2 0 q))

/-- Row `p` of grid point `t`'s block is row 1000·t + p of the array. -/
def row (t : Fin cfg0.N) (p : Fin 1000) : Fin 50000 :=
  ⟨t.val * 1000 + p.val, by have := t.isLt; have hN : cfg0.N = 50 := N_0; have := p.isLt; omega⟩

/-! ## The input blocks read where the output's rectangle says -/

theorem blk0_read (c : Dev nD) (t : Fin cfg0.N) (p : Fin 1000) (k : Fin 128) :
    iblk0 V c 0 t (ix2 p k) = selfArr V c (ix2 (row t p) k) := by
  obtain ⟨e0, e1, -⟩ := idx_facts t
  show V c main_v4 (((cfg0.win 0).blk t).view.emb (ix2 p k)) = V c main_v4 (ix2 (row t p) k)
  refine congrArg (V c main_v4) (funext fun a => Fin.ext ?_)
  match a with
  | ⟨0, _⟩ => show win0_0.index t (0 : Fin 2) * 1000 + 1 * p.val = t.val * 1000 + p.val; omega
  | ⟨1, _⟩ => show win0_0.index t (1 : Fin 2) * 128 + 1 * k.val = k.val; omega

theorem blk1_read (c : Dev nD) (t : Fin cfg0.N) (p : Fin 1000) (k : Fin 128) :
    iblk0 V c 1 t (ix2 p k) = neighArr V c (ix2 (row t p) k) := by
  obtain ⟨-, -, e0, e1, -⟩ := idx_facts t
  show V c main_v19 (((cfg0.win 1).blk t).view.emb (ix2 p k)) = V c main_v19 (ix2 (row t p) k)
  refine congrArg (V c main_v19) (funext fun a => Fin.ext ?_)
  match a with
  | ⟨0, _⟩ => show win0_1.index t (0 : Fin 2) * 1000 + 1 * p.val = t.val * 1000 + p.val; omega
  | ⟨1, _⟩ => show win0_1.index t (1 : Fin 2) * 128 + 1 * k.val = k.val; omega

theorem blk2_read (c : Dev nD) (t : Fin cfg0.N) (k : Fin 256) (q : Fin 256) :
    iblk0 V c 2 t (ix2 k q) = wArr V c (ix2 k q) := by
  obtain ⟨-, -, -, -, e0, e1, -⟩ := idx_facts t
  show V c main_arg4 (((cfg0.win 2).blk t).view.emb (ix2 k q)) = V c main_arg4 (ix2 k q)
  refine congrArg (V c main_arg4) (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

theorem blk3_read (c : Dev nD) (t : Fin cfg0.N) (q : Fin 256) :
    iblk0 V c 3 t (ix2 0 q) = bArr V c (ix2 0 q) := by
  obtain ⟨-, -, -, -, -, -, e0, e1, -⟩ := idx_facts t
  show V c main_v20 (((cfg0.win 3).blk t).view.emb (ix2 0 q)) = V c main_v20 (ix2 0 q)
  refine congrArg (V c main_v20) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-! ## What a point writes back, and the cover -/

/-- WHAT POINT `t` WRITES BACK is block `t` of the layer's formula over the arrays the stage finds. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S1000x128) hz, View.ld_unit_zero (S := S256x256) hz, View.ld_unit_zero (S := S1x256) hz]
  funext j
  obtain ⟨p, q, rfl⟩ : ∃ (p : Fin 1000) (q : Fin 256), j = ix2 p q := ⟨j 0, j 1, eq_ix2 j⟩
  obtain ⟨-, -, -, -, -, -, -, -, e8, e9⟩ := idx_facts t
  show k0_pay1 (F := Ideal) (iblk0 V c 0 t) (iblk0 V c 1 t) (iblk0 V c 2 t) (iblk0 V c 3 t) (ix2 p q)
    = G V c (((cfg0.win 4).blk t).view.emb (ix2 p q))
  have hemb : ((cfg0.win 4).blk t).view.emb (ix2 p q) = ix2 (row t p) q := funext fun a => Fin.ext (by
    match a with
    | ⟨0, _⟩ => show win0_4.index t (0 : Fin 2) * 1000 + 1 * p.val = t.val * 1000 + p.val; omega
    | ⟨1, _⟩ => show win0_4.index t (1 : Fin 2) * 256 + 1 * q.val = q.val; omega)
  rw [hemb]
  refine (Cert.KernelIdeal.Payload0.pay_apply (iblk0 V c 0 t) (iblk0 V c 1 t) (iblk0 V c 2 t) (iblk0 V c 3 t) p q).trans ?_
  show _ = max ((∑ k : Fin 256, catRow (selfArr V c) (neighArr V c) (row t p) k * wArr V c (ix2 k q)) + bArr V c (ix2 0 q)) 0
  rw [blk3_read V c t q]
  refine congrArg (fun s => max (s + bArr V c (ix2 0 q)) 0) (Finset.sum_congr rfl fun k _ => ?_)
  rw [blk2_read V c t k q]
  exact congrArg (· * wArr V c (ix2 k q))
    (catRow_congr (iblk0 V c 0 t) (iblk0 V c 1 t) (selfArr V c) (neighArr V c) p (row t p)
      (fun kk => blk0_read V c t p kk) (fun kk => blk1_read V c t p kk) k)

/-- An index of the array is in point `t`'s block iff each coordinate is in the block's range on its axis. -/
theorem mem_blk (t : Fin cfg0.N) (i : S50000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v21).slice (win0_4.rect t)).set ↔ _
  rw [View.set_slice_whole, Rect.mem_set_unit]
  exact Iff.rfl

/-- THE ARRAY after the stage: every row lies in the block of the point `row / 1000`, so the array is the formula. -/
theorem final (c : Dev nD) : (dat0 V c).arrAt 4 cfg0.N = G V c :=
  (dat0 V c).arrAt_eq_of_cover 4 (G V c) (fun t _ => flushed_eq V c t) fun i => by
    have hi0 : (i 0).val < 50000 := (i 0).isLt
    have hi1 : (i 1).val < 256 := (i 1).isLt
    have hN : cfg0.N = 50 := N_0
    obtain ⟨t, ht⟩ : ∃ t : Fin cfg0.N, t.val = (i 0).val / 1000 := ⟨⟨(i 0).val / 1000, by omega⟩, rfl⟩
    obtain ⟨-, -, -, -, -, -, -, -, e8, e9⟩ := idx_facts t
    refine ⟨t, flush0_4 t, ?_⟩
    rw [mem_blk]
    intro a
    match a with
    | ⟨0, _⟩ => show win0_4.index t (0 : Fin 2) * 1000 ≤ (i 0).val ∧ (i 0).val < win0_4.index t (0 : Fin 2) * 1000 + 1000; omega
    | ⟨1, _⟩ => show win0_4.index t (1 : Fin 2) * 256 ≤ (i 1).val ∧ (i 1).val < win0_4.index t (1 : Fin 2) * 256 + 256; omega

end Cert.KernelIdeal.Region0

end
-- ==== Proof.Payload1.lean ====
/-
  The body of the second dense stage, read at one entry of its output block.

  The body loads a block of `1000` rows of the nodes' own features and the matching block of neighbour means (256 columns
  each), lays them side by side, multiplies by the whole 512×256 weight matrix into a zero accumulator, adds the bias row
  and clips below at zero. At entry (p, q) that is  max (Σ_k [x0 | x1][p, k] · W[k, q] + bias[0, q]) 0.
-/
import proofs.«425848_j34557306863778_3_alg».proof.Proof.Gen.KernelIdeal.Skeleton
import proofs.«425848_j34557306863778_3_alg».proof.Proof.LibDense
import Idealize.ShloMosaic.Lib.ValueIdx
import Idealize.ShloMosaic.Lib.Pipeline.Value
import Idealize.ShloMosaic.PureOps.Ideal.Laws

noncomputable section

open scoped BigOperators

namespace Cert.KernelIdeal.Payload1

open Cert.KernelIdeal Cert.KernelIdeal.Gen Idealize.ShloMosaic Idealize.ShloMosaic.ValueIdx Cert.Dense

/-! The matrix product's operand indices at output entry `i` and contraction index `q`: the left operand is read at
    (row of `i`, `q`), the right at (`q`, column of `i`). -/

theorem lhs_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- The product into a zero accumulator at entry (p, q): the sum over the 512 contraction indices. -/
theorem matmul_apply (l : FVec Ideal S1000x512 .f32) (r : FVec Ideal S512x256 .f32) (p : Fin 1000) (q : Fin 256) :
    matmul dot_S1000x512_S512x256_S1000x256_1_0_0_1_n_n none l r (constant S1000x256 .f32 0x00000000#32) (ix2 p q)
      = ∑ k : Fin 512, l (ix2 p k) * r (ix2 k q) := by
  refine (Idealize.ShloMosaic.Ideal.matmul_constant_zero_apply dot_S1000x512_S512x256_S1000x256_1_0_0_1_n_n none l r (ix2 p q)).trans ?_
  rw [← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 p q) ((ValueIdx.contrEquiv1 dot_S1000x512_S512x256_S1000x256_1_0_0_1_n_n 512 rfl rfl).symm k) = ix2 p k := funext fun a => Fin.ext (by
    match a with
    | ⟨0, _⟩ => exact lhs_0 _ _
    | ⟨1, _⟩ => exact (lhs_1 _ _).trans hk)
  have er : dot_S1000x512_S512x256_S1000x256_1_0_0_1_n_n.rhsIdx (ix2 p q) ((ValueIdx.contrEquiv1 dot_S1000x512_S512x256_S1000x256_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The bias row broadcast down the block's rows, at entry (p, q): the row's entry q. -/
theorem bias_apply (x3 : FVec Ideal S1x256 .f32) (p : Fin 1000) (q : Fin 256) :
    broadcastTo S1000x256 (shapeCast S1x256 x3 shapeCasts_S1x256_S1x256) broadcasts_S1x256_S1000x256 (ix2 p q) = x3 (ix2 0 q) := by
  rw [shapeCast_self]
  exact broadcastTo_apply x3 broadcasts_S1x256_S1000x256 (ix2 p q) (ix2 0 q) (fun a => by
    match a with
    | ⟨0, _⟩ => rfl
    | ⟨1, _⟩ => rfl)

/-- THE PAYLOAD at entry (p, q): the layer's formula over the loaded blocks. -/
theorem pay_apply (x0 x1 : FVec Ideal S1000x256 .f32) (x2 : FVec Ideal S512x256 .f32) (x3 : FVec Ideal S1x256 .f32)
    (p : Fin 1000) (q : Fin 256) :
    k1_pay1 (F := Ideal) x0 x1 x2 x3 (ix2 p q)
      = max ((∑ k : Fin 512, catRow x0 x1 p k * x2 (ix2 k q)) + x3 (ix2 0 q)) 0 := by
  unfold k1_pay1
  rw [maximumf_apply, addf_apply, matmul_apply, bias_apply, broadcast_apply]
  rw [shapeCast_self, shapeCast_self]
  have hz : (Scalar.ofBits (F := Ideal) .f32 0x00000000#32 : EReal) = 0 := Ideal.ofBits_zero_f32
  rw [hz]
  refine congrArg (fun s => max (s + x3 (ix2 0 q)) 0) (Finset.sum_congr rfl fun k _ => ?_)
  exact congrArg (· * x2 (ix2 k q)) (concatenate_cols_apply rfl x0 x1 concatenates_S1000x256_S1000x256_S1000x512_d1 p k)

end Cert.KernelIdeal.Payload1

end
-- ==== Proof.Region1.lean ====
/-
  The second dense stage's output array after its pipeline has run: ONE function of the arrays the stage finds.

  The stage runs over 50 grid points; point t loads rows 1000·t … 1000·t + 999 of the nodes' own features and of the
  neighbour means, the whole weight matrix and the bias row, and writes back rows 1000·t … 1000·t + 999 of the output.
  Each written block is the matching block of the layer's formula over the whole arrays, and the 50 blocks cover every
  row, so the output array IS that formula.
-/
import proofs.«425848_j34557306863778_3_alg».proof.Proof.Gen.KernelIdeal.Frame
import proofs.«425848_j34557306863778_3_alg».proof.Proof.Payload1
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 50 grid points: the two row-blocked inputs and the output sit at block row
    `t`, block column 0; the weight matrix and the bias row are one block each. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The arrays as the stage finds them, at their literal types. -/
abbrev selfArr (c : Dev nD) : FVec Ideal S50000x256 .f32 := V c main_v26
abbrev neighArr (c : Dev nD) : FVec Ideal S50000x256 .f32 := V c main_v41
abbrev wArr (c : Dev nD) : FVec Ideal S512x256 .f32 := V c main_arg6
abbrev bArr (c : Dev nD) : FVec Ideal S1x256 .f32 := V c main_v42

/-- What the output array ends holding: the layer's formula over those arrays. -/
def G (c : Dev nD) : FVec Ideal S50000x256 .f32 :=
  dense (selfArr V c) (neighArr V c) (wArr V c) (fun q => bArr V c (ix2 0 q))

/-- Row `p` of grid point `t`'s block is row 1000·t + p of the array. -/
def row (t : Fin cfg1.N) (p : Fin 1000) : Fin 50000 :=
  ⟨t.val * 1000 + p.val, by have := t.isLt; have hN : cfg1.N = 50 := N_1; have := p.isLt; omega⟩

/-! ## The input blocks read where the output's rectangle says -/

theorem blk0_read (c : Dev nD) (t : Fin cfg1.N) (p : Fin 1000) (k : Fin 256) :
    iblk1 V c 0 t (ix2 p k) = selfArr V c (ix2 (row t p) k) := by
  obtain ⟨e0, e1, -⟩ := idx_facts t
  show V c main_v26 (((cfg1.win 0).blk t).view.emb (ix2 p k)) = V c main_v26 (ix2 (row t p) k)
  refine congrArg (V c main_v26) (funext fun a => Fin.ext ?_)
  match a with
  | ⟨0, _⟩ => show win1_0.index t (0 : Fin 2) * 1000 + 1 * p.val = t.val * 1000 + p.val; omega
  | ⟨1, _⟩ => show win1_0.index t (1 : Fin 2) * 256 + 1 * k.val = k.val; omega

theorem blk1_read (c : Dev nD) (t : Fin cfg1.N) (p : Fin 1000) (k : Fin 256) :
    iblk1 V c 1 t (ix2 p k) = neighArr V c (ix2 (row t p) k) := by
  obtain ⟨-, -, e0, e1, -⟩ := idx_facts t
  show V c main_v41 (((cfg1.win 1).blk t).view.emb (ix2 p k)) = V c main_v41 (ix2 (row t p) k)
  refine congrArg (V c main_v41) (funext fun a => Fin.ext ?_)
  match a with
  | ⟨0, _⟩ => show win1_1.index t (0 : Fin 2) * 1000 + 1 * p.val = t.val * 1000 + p.val; omega
  | ⟨1, _⟩ => show win1_1.index t (1 : Fin 2) * 256 + 1 * k.val = k.val; omega

theorem blk2_read (c : Dev nD) (t : Fin cfg1.N) (k : Fin 512) (q : Fin 256) :
    iblk1 V c 2 t (ix2 k q) = wArr V c (ix2 k q) := by
  obtain ⟨-, -, -, -, e0, e1, -⟩ := idx_facts t
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 512 + 1 * k.val = k.val; omega
  | ⟨1, _⟩ => show win1_2.index t (1 : Fin 2) * 256 + 1 * q.val = q.val; omega

theorem blk3_read (c : Dev nD) (t : Fin cfg1.N) (q : Fin 256) :
    iblk1 V c 3 t (ix2 0 q) = bArr V c (ix2 0 q) := by
  obtain ⟨-, -, -, -, -, -, e0, e1, -⟩ := idx_facts t
  show V c main_v42 (((cfg1.win 3).blk t).view.emb (ix2 0 q)) = V c main_v42 (ix2 0 q)
  refine congrArg (V c main_v42) (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-! ## What a point writes back, and the cover -/

/-- WHAT POINT `t` WRITES BACK is block `t` of the layer's formula over the arrays the stage finds. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S1000x256) hz, View.ld_unit_zero (S := S512x256) hz, View.ld_unit_zero (S := S1x256) hz]
  funext j
  obtain ⟨p, q, rfl⟩ : ∃ (p : Fin 1000) (q : Fin 256), j = ix2 p q := ⟨j 0, j 1, eq_ix2 j⟩
  obtain ⟨-, -, -, -, -, -, -, -, e8, e9⟩ := idx_facts t
  show k1_pay1 (F := Ideal) (iblk1 V c 0 t) (iblk1 V c 1 t) (iblk1 V c 2 t) (iblk1 V c 3 t) (ix2 p q)
    = G V c (((cfg1.win 4).blk t).view.emb (ix2 p q))
  have hemb : ((cfg1.win 4).blk t).view.emb (ix2 p q) = ix2 (row t p) q := funext fun a => Fin.ext (by
    match a with
    | ⟨0, _⟩ => show win1_4.index t (0 : Fin 2) * 1000 + 1 * p.val = t.val * 1000 + p.val; omega
    | ⟨1, _⟩ => show win1_4.index t (1 : Fin 2) * 256 + 1 * q.val = q.val; omega)
  rw [hemb]
  refine (Cert.KernelIdeal.Payload1.pay_apply (iblk1 V c 0 t) (iblk1 V c 1 t) (iblk1 V c 2 t) (iblk1 V c 3 t) p q).trans ?_
  show _ = max ((∑ k : Fin 512, catRow (selfArr V c) (neighArr V c) (row t p) k * wArr V c (ix2 k q)) + bArr V c (ix2 0 q)) 0
  rw [blk3_read V c t q]
  refine congrArg (fun s => max (s + bArr V c (ix2 0 q)) 0) (Finset.sum_congr rfl fun k _ => ?_)
  rw [blk2_read V c t k q]
  exact congrArg (· * wArr V c (ix2 k q))
    (catRow_congr (iblk1 V c 0 t) (iblk1 V c 1 t) (selfArr V c) (neighArr V c) p (row t p)
      (fun kk => blk0_read V c t p kk) (fun kk => blk1_read V c t p kk) k)

/-- An index of the array is in point `t`'s block iff each coordinate is in the block's range on its axis. -/
theorem mem_blk (t : Fin cfg1.N) (i : S50000x256.Idx) :
    i ∈ ((cfg1.win 4).blk t).view.set ↔ ∀ a : Fin 2, win1_4.index t a * S1000x256.size a ≤ (i a).val ∧ (i a).val < win1_4.index t a * S1000x256.size a + S1000x256.size a := by
  show i ∈ ((View.whole main_v43).slice (win1_4.rect t)).set ↔ _
  rw [View.set_slice_whole, Rect.mem_set_unit]
  exact Iff.rfl

/-- THE ARRAY after the stage: every row lies in the block of the point `row / 1000`, so the array is the formula. -/
theorem final (c : Dev nD) : (dat1 V c).arrAt 4 cfg1.N = G V c :=
  (dat1 V c).arrAt_eq_of_cover 4 (G V c) (fun t _ => flushed_eq V c t) fun i => by
    have hi0 : (i 0).val < 50000 := (i 0).isLt
    have hi1 : (i 1).val < 256 := (i 1).isLt
    have hN : cfg1.N = 50 := N_1
    obtain ⟨t, ht⟩ : ∃ t : Fin cfg1.N, t.val = (i 0).val / 1000 := ⟨⟨(i 0).val / 1000, by omega⟩, rfl⟩
    obtain ⟨-, -, -, -, -, -, -, -, e8, e9⟩ := idx_facts t
    refine ⟨t, flush1_4 t, ?_⟩
    rw [mem_blk]
    intro a
    match a with
    | ⟨0, _⟩ => show win1_4.index t (0 : Fin 2) * 1000 ≤ (i 0).val ∧ (i 0).val < win1_4.index t (0 : Fin 2) * 1000 + 1000; omega
    | ⟨1, _⟩ => show win1_4.index t (1 : Fin 2) * 256 ≤ (i 1).val ∧ (i 1).val < win1_4.index t (1 : Fin 2) * 256 + 256; omega

end Cert.KernelIdeal.Region1

end
-- ==== Proof.LibTakeFill.lean ====
/-
  A filling gather whose bounds test passes everywhere is the plain gather.

  A gather that fills out-of-range rows with a constant is a `select` between the gathered rows and the constant under
  a one-bit mask: the "and" over a row's index components of "the component is in range". Where every component is in
  range the reduce is one at every row, and a `select` under an all-ones mask is its first branch.
-/
import Idealize.ShloMosaic.PureOps.Ideal
import Idealize.ShloMosaic.Lib.ReduceAll
import Idealize.ShloMosaic.Lib.ValueIdx

namespace Cert.TakeFill

open Idealize.ShloMosaic

/-- A left fold by "and" from one over words that are all one is one. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => foldl_andi_of_all f l _ (by show IntOp.andi init (f a) = 1#1; rw [h, hl a List.mem_cons_self]; decide)
      (fun n hn => hl n (List.mem_cons_of_mem _ hn))

/-- A reduce by "and" from one over an array of ones is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit (fun n _ => hx n)

/-- A `select` under a mask that is one everywhere is its first branch. -/
theorem select_of_mask_one {s : Shape} {α : Type} (M : IVec s 1) (a b : s.Idx → α) (hM : ∀ i, M i = 1#1) : select M a b = a := by
  funext i
  rw [ValueIdx.select_apply]
  unfold Scalar.select
  exact if_pos (hM i)

end Cert.TakeFill
-- ==== Proof.WrapRange.lean ====
/-
  The index wrap of a gather and the bounds test of a filling gather, on 32-bit words.

  An index `x` with `-50000 ≤ x < 50000` (signed) is wrapped to `w = x + 50000` when negative and left alone otherwise;
  then `0 ≤ w ≤ 49999`: the wrapped index names a row of a 50000-row table, so a gather that fills out-of-range rows
  with a constant never fills here.
-/
import Idealize.ShloMosaic.PureOps.Ideal
import Idealize.ShloMosaic.Lib.StableHlo.Predicate

namespace Cert.WrapRange

open Idealize.ShloMosaic

theorem cmpi_slt (x y : BitVec 32) : IntOp.cmpi .slt x y = BitVec.ofBool (x.slt y) := rfl
theorem cmpi_sge (x y : BitVec 32) : IntOp.cmpi .sge x y = BitVec.ofBool (y.sle x) := rfl
theorem cmpi_sle (x y : BitVec 32) : IntOp.cmpi .sle x y = BitVec.ofBool (x.sle y) := rfl

/-- A signed "less than" between words, as a one-bit word, is one exactly when the integers compare so. -/
theorem slt_one_iff (x y : BitVec 32) : BitVec.ofBool (x.slt y) = 1#1 ↔ x.toInt < y.toInt := by
  rw [StableHlo.Predicate.ofBool_eq_one_iff]; simp only [BitVec.slt, decide_eq_true_eq]
/-- The same for "at most". -/
theorem sle_one_iff (x y : BitVec 32) : BitVec.ofBool (x.sle y) = 1#1 ↔ x.toInt ≤ y.toInt := by
  rw [StableHlo.Predicate.ofBool_eq_one_iff]; simp only [BitVec.sle, decide_eq_true_eq]

/-- A one-bit "and" is one exactly when both bits are. -/
theorem andi_one_iff (c d : BitVec 1) : IntOp.andi c d = 1#1 ↔ c = 1#1 ∧ d = 1#1 := by revert c d; decide

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_zero : (0#32 : BitVec 32).toInt = 0 := by decide

/-- The wrapped index passes both bounds: `(w ≥ 0) ∧ (w ≤ 49999)` as one-bit words. -/
theorem wrap_inb (x : BitVec 32) (h1 : IntOp.cmpi .sge x 4294917296#32 = 1#1) (h2 : IntOp.cmpi .slt x 50000#32 = 1#1) :
    IntOp.andi (IntOp.cmpi .sge (Scalar.select (IntOp.cmpi .slt x 0#32) (IntOp.addi x 50000#32) x) 0#32)
        (IntOp.cmpi .sle (Scalar.select (IntOp.cmpi .slt x 0#32) (IntOp.addi x 50000#32) x) 49999#32) = 1#1 := by
  rw [cmpi_sge, sle_one_iff, toInt_neg50000] at h1
  rw [cmpi_slt, slt_one_iff, toInt_50000] at h2
  rw [andi_one_iff, cmpi_sge, cmpi_sle, cmpi_slt, sle_one_iff, sle_one_iff, toInt_zero, toInt_49999]
  unfold Scalar.select IntOp.addi
  by_cases hneg : x.toInt < 0
  · have hs : BitVec.ofBool (x.slt 0#32) = 1 := (slt_one_iff x 0#32).2 (by rw [toInt_zero]; exact hneg)
    rw [if_pos hs]
    have hw : (x + 50000#32).toInt = x.toInt + 50000 := by
      rw [BitVec.toInt_add, toInt_50000]
      exact Int.bmod_eq_of_le_mul_two (by norm_num; omega) (by norm_num; omega)
    rw [hw]; omega
  · have hs : ¬ BitVec.ofBool (x.slt 0#32) = 1 := fun h => hneg (by have := (slt_one_iff x 0#32).1 h; rwa [toInt_zero] at this)
    rw [if_neg hs]
    omega

end Cert.WrapRange
-- ==== Proof.HostReads1.lean ====
/-
  What the first dense stage finds in its four input arrays, in terms of the program's arguments.

  Before the stage the program computes, on the host: the nodes' own feature rows (a gather of the feature table at the
  wrapped node indices, with out-of-range rows filled by a constant), the masked mean of each node's sampled neighbours'
  rows, and the bias as a one-row matrix. Under the index range the fill never happens, so the first is the reference's
  plain gather; the second is the reference's own chain of operations; the third reads the bias at its column.
-/
import proofs.«425848_j34557306863778_3_alg».proof.Proof.Gen.KernelIdeal.Frame
import proofs.«425848_j34557306863778_3_alg».proof.Proof.Gen.ReferenceIdeal.Read
import proofs.«425848_j34557306863778_3_alg».proof.Proof.LibTakeFill
import proofs.«425848_j34557306863778_3_alg».proof.Proof.WrapRange
import Idealize.ShloMosaic.Lib.StableHlo.Run
import Idealize.ShloMosaic.Lib.Pipeline.Value
import Idealize.ShloMosaic.Lib.ValueIdx

set_option maxRecDepth 16384

noncomputable section

namespace Cert.KernelIdeal.HostReads1

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- "Every node index lies in [-50000, 50000)", as the two one-bit tests the precondition makes of each entry. -/
abbrev InRange (c : Dev nD) : Prop :=
  ∀ r : S50000.Idx, IntOp.cmpi .sge (m ((c : Thread nD τ).loc main_arg0) r) 4294917296#32 = 1#1
    ∧ IntOp.cmpi .slt (m ((c : Thread nD τ).loc main_arg0) r) 50000#32 = 1#1

/-- The nodes' own rows: the filling gather is the reference's plain gather, every wrapped index being in range. -/
theorem self1 (c : Dev nD) (hx : InRange m c) :
    V3 (F := Ideal) m ρ c main_v4 = Cert.ReferenceIdeal.Read.val_main_v25 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v4) = _
  simp only [hostOps0_2, hostOps0_1, hostOps0]
  after_results_simp
  simp only [TRef.toBuf, TRef.ofBuf, cast_eq]
  refine (Cert.TakeFill.select_of_mask_one _ _ _ (fun i => ?_)).trans ?_
  · show Host.reduce IntOp.andi _ _ _ _ _ = 1#1
    refine Cert.TakeFill.reduce_andi_of_all _ _ _ _ rfl (fun idx => ?_) _
    exact Cert.WrapRange.wrap_inb _ (hx _).1 (hx _).2
  · rfl

/-- The neighbour means: the same chain of host operations as the reference's. -/
theorem neigh1 (c : Dev nD) :
    V3 (F := Ideal) m ρ c main_v19 = Cert.ReferenceIdeal.Read.val_main_v18 (F := Ideal) (m ((c : Thread nD τ).loc main_arg1)) (m ((c : Thread nD τ).loc main_arg2)) (m ((c : Thread nD τ).loc main_arg3)) := by
  show StableHlo.after hostOps0_2 (StableHlo.after hostOps0_1 (StableHlo.after hostOps0 (W0 m ρ c))) (Proc.devRef .tc main_v19) = _
  simp only [hostOps0_2, hostOps0_1, hostOps0]
  after_results_simp
  rfl

/-- The weight matrix is the argument. -/
theorem w1 (c : Dev nD) : V3 (F := Ideal) m ρ c main_arg4 = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results_simp <;> rfl

/-- The bias as a one-row matrix, at column `q`: the bias's entry `q`. -/
theorem bias1 (c : Dev nD) (q : Fin 256) : V3 (F := Ideal) m ρ c main_v20 (ix2 0 q) = (m ((c : Thread nD τ).loc main_arg5)) (ix1 q) := by
  have e : V3 (F := Ideal) m ρ c main_v20 = shapeCast S1x256 (m ((c : Thread nD τ).loc main_arg5)) shapeCasts_S256_S1x256 := by
    show StableHlo.after hostOps0_2 (StableHlo.after hostOps0_1 (StableHlo.after hostOps0 (W0 m ρ c))) (Proc.devRef .tc main_v20) = _
    simp only [hostOps0_2, hostOps0_1, hostOps0]
    after_results_simp
    rfl
  rw [e]
  exact shapeCast_apply _ shapeCasts_S256_S1x256 (ix2 0 q) (ix1 q)
    (by rewrite [Shape.rowMajor_val_one, Shape.rowMajor_val_two]; show q.val = 0 * 256 + q.val; omega)

end Cert.KernelIdeal.HostReads1

end
-- ==== Proof.HostReads2.lean ====
/-
  What the second dense stage finds in its four input arrays, in terms of the program's arguments and the first stage's
  output.

  Between the stages the program repeats the host computation of the first layer with the first stage's output as the
  feature table: the nodes' own rows (a filling gather, plain under the index range) and the masked neighbour means.
  No host operation and no write-back of the first stage touches an argument, so each argument is still as launched.
-/
import proofs.«425848_j34557306863778_3_alg».proof.Proof.Gen.KernelIdeal.Frame
import proofs.«425848_j34557306863778_3_alg».proof.Proof.Gen.ReferenceIdeal.Read
import proofs.«425848_j34557306863778_3_alg».proof.Proof.LibTakeFill
import proofs.«425848_j34557306863778_3_alg».proof.Proof.WrapRange
import Idealize.ShloMosaic.Lib.StableHlo.Run
import Idealize.ShloMosaic.Lib.Pipeline.Value
import Idealize.ShloMosaic.Lib.ValueIdx

set_option maxRecDepth 16384

noncomputable section

namespace Cert.KernelIdeal.HostReads2

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- "Every node index lies in [-50000, 50000)", as the two one-bit tests the precondition makes of each entry. -/
abbrev InRange (c : Dev nD) : Prop :=
  ∀ r : S50000.Idx, IntOp.cmpi .sge (m ((c : Thread nD τ).loc main_arg0) r) 4294917296#32 = 1#1
    ∧ IntOp.cmpi .slt (m ((c : Thread nD τ).loc main_arg0) r) 50000#32 = 1#1

/-! ## The arguments at the first stage's exit are as launched -/

theorem W4_arg0 (c : Dev nD) : W4 (F := Ideal) m ρ c (Proc.devRef .tc main_arg0) = (m ((c : Thread nD τ).loc main_arg0)) := by
  rw [W4_of_ne m ρ c main_arg0 (by decide)]
  show StableHlo.after hostOps0_2 (StableHlo.after hostOps0_1 (StableHlo.after hostOps0 (W0 m ρ c))) (Proc.devRef .tc main_arg0) = _
  simp only [hostOps0_2, hostOps0_1, hostOps0]
  after_results_simp <;> rfl

theorem W4_arg2 (c : Dev nD) : W4 (F := Ideal) m ρ c (Proc.devRef .tc main_arg2) = (m ((c : Thread nD τ).loc main_arg2)) := by
  rw [W4_of_ne m ρ c main_arg2 (by decide)]
  show StableHlo.after hostOps0_2 (StableHlo.after hostOps0_1 (StableHlo.after hostOps0 (W0 m ρ c))) (Proc.devRef .tc main_arg2) = _
  simp only [hostOps0_2, hostOps0_1, hostOps0]
  after_results_simp <;> rfl

theorem W4_arg3 (c : Dev nD) : W4 (F := Ideal) m ρ c (Proc.devRef .tc main_arg3) = (m ((c : Thread nD τ).loc main_arg3)) := by
  rw [W4_of_ne m ρ c main_arg3 (by decide)]
  show StableHlo.after hostOps0_2 (StableHlo.after hostOps0_1 (StableHlo.after hostOps0 (W0 m ρ c))) (Proc.devRef .tc main_arg3) = _
  simp only [hostOps0_2, hostOps0_1, hostOps0]
  after_results_simp <;> rfl

theorem W4_arg6 (c : Dev nD) : W4 (F := Ideal) m ρ c (Proc.devRef .tc main_arg6) = (m ((c : Thread nD τ).loc main_arg6)) := by
  rw [W4_of_ne m ρ c main_arg6 (by decide)]
  show StableHlo.after hostOps0_2 (StableHlo.after hostOps0_1 (StableHlo.after hostOps0 (W0 m ρ c))) (Proc.devRef .tc main_arg6) = _
  simp only [hostOps0_2, hostOps0_1, hostOps0]
  after_results_simp <;> rfl

theorem W4_arg7 (c : Dev nD) : W4 (F := Ideal) m ρ c (Proc.devRef .tc main_arg7) = (m ((c : Thread nD τ).loc main_arg7)) := by
  rw [W4_of_ne m ρ c main_arg7 (by decide)]
  show StableHlo.after hostOps0_2 (StableHlo.after hostOps0_1 (StableHlo.after hostOps0 (W0 m ρ c))) (Proc.devRef .tc main_arg7) = _
  simp only [hostOps0_2, hostOps0_1, hostOps0]
  after_results_simp <;> rfl

/-- The first stage's output after the stage, as the assumption the reads below are stated under: it is layer 1 of the
    reference. -/
abbrev Layer1Is (c : Dev nD) : Prop :=
  W4 (F := Ideal) m ρ c (Proc.devRef .tc main_v21) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The nodes' own rows of layer 1's output: the reference's plain gather. -/
theorem self2 (c : Dev nD) (hx : InRange m c) (hh : Layer1Is m ρ c) :
    V7 (F := Ideal) m ρ c main_v26 = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1_2 (StableHlo.after hostOps1_1 (StableHlo.after hostOps1 (W4 m ρ c))) (Proc.devRef .tc main_v26) = _
  simp only [hostOps1_2, hostOps1_1, hostOps1]
  after_results_simp
  simp only [TRef.toBuf, TRef.ofBuf, cast_eq]
  rw [hh, W4_arg0 m ρ c]
  refine (Cert.TakeFill.select_of_mask_one _ _ _ (fun i => ?_)).trans ?_
  · show Host.reduce IntOp.andi _ _ _ _ _ = 1#1
    refine Cert.TakeFill.reduce_andi_of_all _ _ _ _ rfl (fun idx => ?_) _
    exact Cert.WrapRange.wrap_inb _ (hx _).1 (hx _).2
  · rfl

/-- The neighbour means of layer 1's output: the reference's own chain. -/
theorem neigh2 (c : Dev nD) (hh : Layer1Is m ρ c) :
    V7 (F := Ideal) m ρ c main_v41 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1_2 (StableHlo.after hostOps1_1 (StableHlo.after hostOps1 (W4 m ρ c))) (Proc.devRef .tc main_v41) = _
  simp only [hostOps1_2, hostOps1_1, hostOps1]
  after_results_simp
  rw [hh, W4_arg2 m ρ c, W4_arg3 m ρ c]
  rfl

/-- The second weight matrix is the argument. -/
theorem w2 (c : Dev nD) : V7 (F := Ideal) m ρ c main_arg6 = (m ((c : Thread nD τ).loc main_arg6)) := by
  show StableHlo.after hostOps1_2 (StableHlo.after hostOps1_1 (StableHlo.after hostOps1 (W4 m ρ c))) (Proc.devRef .tc main_arg6) = _
  simp only [hostOps1_2, hostOps1_1, hostOps1]
  after_results_simp
  exact W4_arg6 m ρ c

/-- The second bias as a one-row matrix, at column `q`. -/
theorem bias2 (c : Dev nD) (q : Fin 256) : V7 (F := Ideal) m ρ c main_v42 (ix2 0 q) = (m ((c : Thread nD τ).loc main_arg7)) (ix1 q) := by
  have e : V7 (F := Ideal) m ρ c main_v42 = shapeCast S1x256 (m ((c : Thread nD τ).loc main_arg7)) shapeCasts_S256_S1x256 := by
    show StableHlo.after hostOps1_2 (StableHlo.after hostOps1_1 (StableHlo.after hostOps1 (W4 m ρ c))) (Proc.devRef .tc main_v42) = _
    simp only [hostOps1_2, hostOps1_1, hostOps1]
    after_results_simp
    rw [W4_arg7 m ρ c]
    rfl
  rw [e]
  exact shapeCast_apply _ shapeCasts_S256_S1x256 (ix2 0 q) (ix1 q)
    (by rewrite [Shape.rowMajor_val_one, Shape.rowMajor_val_two]; show q.val = 0 * 256 + q.val; omega)

end Cert.KernelIdeal.HostReads2

end
-- ==== Proof.RefDense.lean ====
/-
  The reference's two layers, each as the layer's formula of its own gathered rows and neighbour means.

  The reference joins the gathered rows and the neighbour means along the columns, multiplies by the weight matrix,
  adds the bias broadcast down the rows and takes the maximum with zero. Read at an entry (r, j) that is
  max (Σ_k [self | neigh][r, k] · W[k, j] + bias[j]) 0: the product's sum over the joined axis, the joined row read
  piece by piece, the bias at its column.
-/
import proofs.«425848_j34557306863778_3_alg».proof.Proof.Gen.ReferenceIdeal.Read
import proofs.«425848_j34557306863778_3_alg».proof.Proof.LibDense

noncomputable section

open scoped BigOperators

namespace Cert.ReferenceIdeal.Layers

open Cert.ReferenceIdeal Cert.ReferenceIdeal.Gen Cert.ReferenceIdeal.Read Idealize.ShloMosaic Idealize.ShloMosaic.ValueIdx Cert.Dense

/-- Layer 1 of the reference is the layer's formula over its gathered rows (`val_main_v25`) and its neighbour means
    (`val_main_v18`), the first weight matrix and the first bias. -/
theorem layer1_eq (x0 : IVec S50000 32) (x1 : FVec Ideal S50000x128 .f32) (x2 : IVec S2x50000x10 32) (x3 : FVec Ideal S2x50000x10 .f32)
    (x4 : FVec Ideal S256x256 .f32) (x5 : FVec Ideal S256 .f32) :
    val_main_v31 (F := Ideal) x0 x1 x2 x3 x4 x5
      = dense (val_main_v25 (F := Ideal) x0 x1) (val_main_v18 (F := Ideal) x1 x2 x3) x4 (fun q => x5 (ix1 q)) := by
  funext i
  obtain ⟨r, j, rfl⟩ : ∃ (r : Fin 50000) (j : Fin 256), i = ix2 r j := ⟨i 0, i 1, eq_ix2 i⟩
  rw [val_main_v31_apply, val_main_v30_apply, val_main_v27_apply, val_main_v29_apply, val_main_v28_apply,
    val_main_call0_v0_apply, val_main_call0_cst_apply, dense_apply]
  have eb : idx_main_v28 (idx_main_v29 (ix2 r j)) = ix1 j := funext fun a => Fin.ext (by match a with | ⟨0, _⟩ => rfl)
  rw [eb]
  show max ((∑ k : Fin 256, val_main_v26 (F := Ideal) x0 x1 x2 x3 (lidx_main_v27 (ix2 r j) k) * x4 (ridx_main_v27 (ix2 r j) k)) + x5 (ix1 j))
      (Ideal.ofBits .f32 0x00000000#32) = _
  rw [Ideal.ofBits_zero_f32]
  refine congrArg (fun s => max (s + x5 (ix1 j)) 0) (Finset.sum_congr rfl fun k _ => ?_)
  have el : lidx_main_v27 (ix2 r j) k = ix2 r k := funext fun a => Fin.ext (by match a with | ⟨0, _⟩ => rfl | ⟨1, _⟩ => rfl)
  have er : ridx_main_v27 (ix2 r j) k = ix2 k j := funext fun a => Fin.ext (by match a with | ⟨0, _⟩ => rfl | ⟨1, _⟩ => rfl)
  rw [el, er]
  unfold val_main_v26
  exact congrArg (· * x4 (ix2 k j)) (concatenate_cols_apply rfl _ _ concatenates_S50000x128_S50000x128_S50000x256_d1 r k)

/-- Layer 2 of the reference is the layer's formula over ITS gathered rows (`val_main_v57`: rows of layer 1's output) and
    neighbour means (`val_main_v50`), the second weight matrix and the second bias. -/
theorem layer2_eq (x0 : IVec S50000 32) (x1 : FVec Ideal S50000x128 .f32) (x2 : IVec S2x50000x10 32) (x3 : FVec Ideal S2x50000x10 .f32)
    (x4 : FVec Ideal S256x256 .f32) (x5 : FVec Ideal S256 .f32) (x6 : FVec Ideal S512x256 .f32) (x7 : FVec Ideal S256 .f32) :
    val_main_v63 (F := Ideal) x0 x1 x2 x3 x4 x5 x6 x7
      = dense (val_main_v57 (F := Ideal) x0 x1 x2 x3 x4 x5) (val_main_v50 (F := Ideal) x0 x1 x2 x3 x4 x5) x6 (fun q => x7 (ix1 q)) := by
  funext i
  obtain ⟨r, j, rfl⟩ : ∃ (r : Fin 50000) (j : Fin 256), i = ix2 r j := ⟨i 0, i 1, eq_ix2 i⟩
  rw [val_main_v63_apply, val_main_v62_apply, val_main_v59_apply, val_main_v61_apply, val_main_v60_apply,
    val_main_call1_v0_apply, val_main_call1_cst_apply, dense_apply]
  have eb : idx_main_v60 (idx_main_v61 (ix2 r j)) = ix1 j := funext fun a => Fin.ext (by match a with | ⟨0, _⟩ => rfl)
  rw [eb]
  show max ((∑ k : Fin 512, val_main_v58 (F := Ideal) x0 x1 x2 x3 x4 x5 (lidx_main_v59 (ix2 r j) k) * x6 (ridx_main_v59 (ix2 r j) k)) + x7 (ix1 j))
      (Ideal.ofBits .f32 0x00000000#32) = _
  rw [Ideal.ofBits_zero_f32]
  refine congrArg (fun s => max (s + x7 (ix1 j)) 0) (Finset.sum_congr rfl fun k _ => ?_)
  have el : lidx_main_v59 (ix2 r j) k = ix2 r k := funext fun a => Fin.ext (by match a with | ⟨0, _⟩ => rfl | ⟨1, _⟩ => rfl)
  have er : ridx_main_v59 (ix2 r j) k = ix2 k j := funext fun a => Fin.ext (by match a with | ⟨0, _⟩ => rfl | ⟨1, _⟩ => rfl)
  rw [el, er]
  unfold val_main_v58
  exact congrArg (· * x6 (ix2 k j)) (concatenate_cols_apply rfl _ _ concatenates_S50000x256_S50000x256_S50000x512_d1 r k)

end Cert.ReferenceIdeal.Layers

end
-- ==== Proof.NodesRange.lean ====
/-
  The precondition's range of the node indices, read back.

  The precondition ends with two tests over the node-index array: every entry is at least -50000 and every entry is
  below 50000 (signed words), each a reduce by "and" into one bit. Where the precondition holds both bits are one, so
  every entry passes both tests.
-/
import proofs.«425848_j34557306863778_3_alg».proof.Pre_finite_inputs
import proofs.«425848_j34557306863778_3_alg».proof.Proof.WrapRange
import Idealize.ShloMosaic.Lib.ReduceAll
import Idealize.ShloMosaic.Lib.ValueIdx

namespace Cert.NodesRange

open Idealize.ShloMosaic Cert.Pre_finite_inputs Cert.Pre_finite_inputs.Facts

variable [hF : Cert.Pre_finite_inputs.Facts]

/-- Under the precondition every node index `x` satisfies `-50000 ≤ x` and `x < 50000` as signed words. -/
theorem range_of_pre (a0 : IVec S50000 32) (a1 : FVec Ideal S50000x128 .f32) (a2 : IVec S2x50000x10 32) (a3 : FVec Ideal S2x50000x10 .f32)
    (a4 : FVec Ideal S256x256 .f32) (a5 : FVec Ideal S256 .f32) (a6 : FVec Ideal S512x256 .f32) (a7 : FVec Ideal S256 .f32)
    (h : fn (F := Ideal) a0 a1 a2 a3 a4 a5 a6 a7 = fun _ => 1#1) (r : S50000.Idx) :
    IntOp.cmpi .sge (a0 r) 4294917296#32 = 1#1 ∧ IntOp.cmpi .slt (a0 r) 50000#32 = 1#1 := by
  have h0 := congrFun h ValueIdx.ix0
  dsimp only [fn, fn_part1, fn_part2] at h0
  obtain ⟨h32, h35⟩ := (Cert.WrapRange.andi_one_iff _ _).1 h0
  obtain ⟨h28, h31⟩ := (Cert.WrapRange.andi_one_iff _ _).1 h32
  haveI : Subsingleton S_.Idx := ⟨fun a b => funext fun d => d.elim0⟩
  exact ⟨Host.reduce_andi_all _ _ _ _ ValueIdx.ix0 h31 r, Host.reduce_andi_all _ _ _ _ ValueIdx.ix0 h35 r⟩

end Cert.NodesRange
-- ==== Proof.Bridge.lean ====
/-
  The idealized kernel program's result, as the reference's closing stage of the same arguments.

  Layer by layer. The first dense stage's output array is the layer's formula over what the stage finds; what it finds
  are the reference's gathered rows (the index range making the kernel's filling gather plain), the reference's neighbour
  means, the first weight matrix and bias; and the reference's layer 1 is that same formula. So the first stage's output
  IS the reference's layer 1. The second stage repeats this over that output, which gives the reference's layer 2: the
  program's result.
-/
import proofs.«425848_j34557306863778_3_alg».proof.Defs
import proofs.«425848_j34557306863778_3_alg».proof.Proof.Gen.Pre_finite_inputs
import proofs.«425848_j34557306863778_3_alg».proof.Proof.Region0
import proofs.«425848_j34557306863778_3_alg».proof.Proof.Region1
import proofs.«425848_j34557306863778_3_alg».proof.Proof.HostReads1
import proofs.«425848_j34557306863778_3_alg».proof.Proof.HostReads2
import proofs.«425848_j34557306863778_3_alg».proof.Proof.RefDense
import proofs.«425848_j34557306863778_3_alg».proof.Proof.NodesRange

set_option maxRecDepth 16384

noncomputable section

namespace Cert.Bridge

open Cert.KernelIdeal Cert.KernelIdeal.Gen Idealize.ShloMosaic Idealize.ShloMosaic.TcCoe Idealize.SL.Sem
open Idealize.ShloMosaic.ValueIdx Cert.Dense

variable (m : (ℓ : Loc nD τ sig) → Buf (Elt Ideal) ℓ) (ρ : Dev nD → PrngReg)

/-- Under the precondition every node index is in `[-50000, 50000)`. -/
theorem inRange [Cert.Pre_finite_inputs.Facts] (hpre : Cert.Pre_KernelIdeal m) (c : Dev nD) :
    Cert.KernelIdeal.HostReads1.InRange m c := fun r =>
  Cert.NodesRange.range_of_pre _ _ _ _ _ _ _ _ (hpre c) r

/-- THE FIRST STAGE'S OUTPUT is the reference's layer 1 of the arguments. -/
theorem layer1 (c : Dev nD) (hx : Cert.KernelIdeal.HostReads1.InRange m c) :
    W4 (F := Ideal) m ρ c (Proc.devRef .tc main_v21)
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 4).trans ?_
  rw [Cert.KernelIdeal.Region0.final (V3 m ρ) c, Cert.ReferenceIdeal.Layers.layer1_eq]
  unfold Cert.KernelIdeal.Region0.G
  show dense (V3 m ρ c main_v4) (V3 m ρ c main_v19) (V3 m ρ c main_arg4) (fun q => V3 m ρ c main_v20 (ix2 0 q)) = _
  rw [Cert.KernelIdeal.HostReads1.self1 m ρ c hx, Cert.KernelIdeal.HostReads1.neigh1 m ρ c, Cert.KernelIdeal.HostReads1.w1 m ρ c,
    funext (Cert.KernelIdeal.HostReads1.bias1 m ρ c)]

/-- THE RESULT: the last boundary's contents at the result buffer are the reference's closing stage of the arguments. -/
theorem final_value (c : Dev nD) (hx : Cert.KernelIdeal.HostReads1.InRange m c) :
    W8 (F := Ideal) m ρ c (Proc.devRef .tc main_v43)
      = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hh : Cert.KernelIdeal.HostReads2.Layer1Is m ρ c := layer1 m ρ c hx
  refine (W8_arr m ρ c 4).trans ?_
  rw [Cert.KernelIdeal.Region1.final (V7 m ρ) c, Cert.ReferenceIdeal.Layers.layer2_eq]
  unfold Cert.KernelIdeal.Region1.G
  show dense (V7 m ρ c main_v26) (V7 m ρ c main_v41) (V7 m ρ c main_arg6) (fun q => V7 m ρ c main_v42 (ix2 0 q)) = _
  rw [Cert.KernelIdeal.HostReads2.self2 m ρ c hx hh, Cert.KernelIdeal.HostReads2.neigh2 m ρ c hh, Cert.KernelIdeal.HostReads2.w2 m ρ c,
    funext (Cert.KernelIdeal.HostReads2.bias2 m ρ c)]

end Cert.Bridge

end
-- ==== Proof.lean ====
/-
  A two-layer graph network on 50000 nodes: the kernel program against its reference, over the extended reals.

  A layer takes a feature table (one row per node), the node indices, ten sampled neighbour indices per node and a weight
  per sample. It gathers each node's own row; it gathers the sampled neighbours' rows, scales each by its weight, sums
  the ten and divides by the sum of the weights; it lays the own row and that mean side by side, multiplies by a weight
  matrix, adds a bias and clips below at zero. The network is two such layers, the second over the first's output.

  The reference does all of this with whole-array operations. The kernel program does the two gathers and the mean the
  same way, then runs the product, the bias and the clip as a pipelined stage over fifty blocks of a thousand rows.
  The two differ in ONE place: the kernel's gather of the nodes' own rows fills a row with a constant when its (wrapped)
  index falls outside the table, where the reference's gather clamps the index. The statement's precondition puts every
  node index in [-50000, 50000) — outside it the reference's own indexing is out of range — and there the wrapped index
  always names a row, the fill never happens, and the two gathers are one.

  Given that: each stage's output array is ONE function of the arrays it finds (each grid point writes the matching block
  of that function, and the blocks cover the array); the reference's layer is the same function of the same arrays (the
  matrix product into a zero accumulator and the host's product are the same sum over the joined axis at every entry, the
  joined row read piece by piece); so the first stage's output is the reference's first layer, and the program's result
  is the reference's second layer of it. Nothing here uses that the floating inputs are finite: every step is an
  equality of the same operations on the same extended reals.
-/
import proofs.«425848_j34557306863778_3_alg».proof.Defs
import proofs.«425848_j34557306863778_3_alg».proof.Proof.Gen.Kernel
import proofs.«425848_j34557306863778_3_alg».proof.Proof.Gen.Kernel.Skeleton
import proofs.«425848_j34557306863778_3_alg».proof.Proof.Gen.Kernel.Launch
import proofs.«425848_j34557306863778_3_alg».proof.Proof.Gen.Kernel.Points
import proofs.«425848_j34557306863778_3_alg».proof.Proof.Gen.Kernel.Frame
import proofs.«425848_j34557306863778_3_alg».proof.Proof.Gen.KernelIdeal
import proofs.«425848_j34557306863778_3_alg».proof.Proof.Gen.KernelIdeal.Skeleton
import proofs.«425848_j34557306863778_3_alg».proof.Proof.Gen.KernelIdeal.Launch
import proofs.«425848_j34557306863778_3_alg».proof.Proof.Gen.KernelIdeal.Points
import proofs.«425848_j34557306863778_3_alg».proof.Proof.Gen.KernelIdeal.Frame
import proofs.«425848_j34557306863778_3_alg».proof.Proof.Gen.ReferenceIdeal
import proofs.«425848_j34557306863778_3_alg».proof.Proof.Gen.ReferenceIdeal.Run
import proofs.«425848_j34557306863778_3_alg».proof.Proof.Gen.ReferenceIdeal.Read
import proofs.«425848_j34557306863778_3_alg».proof.Proof.Gen.Pre_finite_inputs
import proofs.«425848_j34557306863778_3_alg».proof.Proof.ResultRun
import proofs.«425848_j34557306863778_3_alg».proof.Proof.Bridge
import Idealize.ShloMosaic.Adequacy
import Idealize.ShloMosaic.Init

noncomputable section

namespace Cert.Proof

open Idealize.ShloMosaic Idealize.SL.Sem

/-- The word-level kernel program runs, faults nowhere and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, both run and end with the same result: the
    reference's closing stage of the arguments — the reference by its own run, the kernel program by the layer-by-layer
    bridge under the node indices' range. -/
theorem algebraic : Cert.algebraic_KernelIdeal_ReferenceIdeal := by
  intro m ρ m' ρ' hpre hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.final_value m ρ c (Cert.Bridge.inRange m hpre c)), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
